-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S200000x128 .f32) (main_arg1 : IVec S2x600000 32) (main_arg2 : FVec F S128x128 .f32) (main_arg3 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S200000x128 : Shape := ⟨2, ![200000, 128]⟩
abbrev S2x600000 : Shape := ⟨2, ![2, 600000]⟩
abbrev S128x128 : Shape := ⟨2, ![128, 128]⟩
abbrev S128 : Shape := ⟨1, ![128]⟩
abbrev S10000x128 : Shape := ⟨2, ![10000, 128]⟩
abbrev S200000 : Shape := ⟨1, ![200000]⟩
abbrev S1x600000 : Shape := ⟨2, ![1, 600000]⟩
abbrev S600000 : Shape := ⟨1, ![600000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 66
  | .vmem => 10
  | .smem => 0
  | _ => 0

abbrev bufTy : (tb : Table) → Fin (tcTables nBuf tb) → BufTy
  | .hbm, ⟨0, _⟩ => ⟨S200000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S200000x128, .f32⟩
  | .hbm, ⟨5, _⟩ => ⟨S200000, .i32⟩
  | .hbm, ⟨6, _⟩ => ⟨S1x600000, .i32⟩
  | .hbm, ⟨7, _⟩ => ⟨S600000, .i32⟩
  | .hbm, ⟨8, _⟩ => ⟨S800000, .i32⟩
  | .hbm, ⟨9, _⟩ => ⟨S1x600000, .i32⟩
  | .hbm, ⟨10, _⟩ => ⟨S600000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S200000, .f32⟩
  | .hbm, ⟨16, _⟩ => ⟨S800000x1, .i32⟩
  | .hbm, ⟨17, _⟩ => ⟨S200000, .f32⟩
  | .hbm, ⟨18, _⟩ => ⟨S_, .f32⟩
  | .hbm, ⟨19, _⟩ => ⟨S200000, .f32⟩
  | .hbm, ⟨20, _⟩ => ⟨S200000, .i1⟩
  | .hbm, ⟨21, _⟩ => ⟨S_, .f32⟩
  | .hbm, ⟨22, _⟩ => ⟨S200000, .f32⟩
  | .hbm, ⟨23, _⟩ => ⟨S200000, .f32⟩
  | .hbm, ⟨24, _⟩ => ⟨S200000, .f32⟩
  | .hbm, ⟨25, _⟩ => ⟨S_, .f32⟩
  | .hbm, ⟨26, _⟩ => ⟨S_, .f32⟩
  | .hbm, ⟨27, _⟩ => ⟨S200000, .f32⟩
  | .hbm, ⟨28, _⟩ => ⟨S200000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x1, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S200000x128, .f32⟩
  | .hbm, ⟨62, _⟩ => ⟨S800000x1, .i32⟩
  | .hbm, ⟨63, _⟩ => ⟨S200000x128, .f32⟩
  | .hbm, ⟨64, _⟩ => ⟨S1x128, .f32⟩
  | .hbm, ⟨65, _⟩ => ⟨S200000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x600000_S1x600000_0_0 : S2x600000.Slices ![0, 0] S1x600000
  shapeCasts_S1x600000_S600000 : S1x600000.ShapeCasts S600000
  concatenates_S600000_S200000_S800000_d0 : Shape.Concatenates [S600000, S200000] S800000 0
  slices_S2x600000_S1x600000_1_0 : S2x600000.Slices ![1, 0] S1x600000
  bcast_S_S800000 : S_.BroadcastsInDim S800000 (![] : Fin 0 → Fin S800000.rank)
  bcast_S_S200000 : S_.BroadcastsInDim S200000 (![] : Fin 0 → Fin S200000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S200000x128 : S_.BroadcastsInDim S200000x128 (![] : Fin 0 → Fin S200000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  dot_S10000x128_S128x128_S10000x128_1_0_0_1_n_n_wf : DotDims.WF S10000x128 S128x128 S10000x128 [1] [0] [0] [1] [] []
  scatter_S200000_S800000x1_S800000_n_0_0_1_wf : ScatterDims.WF S200000 S800000x1 S800000 [] [0] [0] 1
  gather_S200000_S800000x1_S800000_n_0_n_n_0_1_1_wf : GatherDims.WF S200000 S800000x1 S800000 [] [0] [] [0] [] 1 ![1]
  gather_S200000x128_S800000x1_S800000x128_1_0_n_n_0_1_1128_wf : GatherDims.WF S200000x128 S800000x1 S800000x128 [1] [0] [] [0] [] 1 ![1, 128]
  scatter_S200000x128_S800000x1_S800000x128_1_0_0_1_wf : ScatterDims.WF S200000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S200000x128.size a
  hwx0_2 : ∀ i : grid0.Coords, EltTy.bits .f32 = 32 ∨ (Rect.block (s := S200000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S200000x128.size a
  hwx1_0 : ∀ i : grid1.Coords, EltTy.bits .f32 = 32 ∨ (Rect.block (s := S200000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S200000x128.size a
  hwx1_2 : ∀ i : grid1.Coords, EltTy.bits .f32 = 32 ∨ (Rect.block (s := S200000x128) S10000x128.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def gather_S200000_S800000x1_S800000_n_0_n_n_0_1_1 : GatherDims S200000 S800000x1 S800000 where
  offsetDims := []
  collapsedSliceDims := [0]
  operandBatchingDims := []
  startIndicesBatchingDims := []
  startIndexMap := [0]
  indexVectorDim := 1
  sliceSizes := ![1]
  wf := gather_S200000_S800000x1_S800000_n_0_n_n_0_1_1_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x128 : Shape := ⟨2, ![200000, 128]⟩
abbrev S2x600000 : Shape := ⟨2, ![2, 600000]⟩
abbrev S128x128 : Shape := ⟨2, ![128, 128]⟩
abbrev S128 : Shape := ⟨1, ![128]⟩
abbrev S200000 : Shape := ⟨1, ![200000]⟩
abbrev S1x600000 : Shape := ⟨2, ![1, 600000]⟩
abbrev S600000 : Shape := ⟨1, ![600000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S200000, .i32⟩
  | .hbm, ⟨5, _⟩ => ⟨S1x600000, .i32⟩
  | .hbm, ⟨6, _⟩ => ⟨S600000, .i32⟩
  | .hbm, ⟨7, _⟩ => ⟨S800000, .i32⟩
  | .hbm, ⟨8, _⟩ => ⟨S1x600000, .i32⟩
  | .hbm, ⟨9, _⟩ => ⟨S600000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S200000, .f32⟩
  | .hbm, ⟨15, _⟩ => ⟨S800000x1, .i32⟩
  | .hbm, ⟨16, _⟩ => ⟨S200000, .f32⟩
  | .hbm, ⟨17, _⟩ => ⟨S_, .f32⟩
  | .hbm, ⟨18, _⟩ => ⟨S200000, .f32⟩
  | .hbm, ⟨19, _⟩ => ⟨S200000, .i1⟩
  | .hbm, ⟨20, _⟩ => ⟨S_, .f32⟩
  | .hbm, ⟨21, _⟩ => ⟨S200000, .f32⟩
  | .hbm, ⟨22, _⟩ => ⟨S200000, .f32⟩
  | .hbm, ⟨23, _⟩ => ⟨S200000, .f32⟩
  | .hbm, ⟨24, _⟩ => ⟨S_, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000, .f32⟩
  | .hbm, ⟨46, _⟩ => ⟨S800000, .f32⟩
  | .hbm, ⟨47, _⟩ => ⟨S200000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x1, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S200000x128, .f32⟩
  | .hbm, ⟨62, _⟩ => ⟨S800000x1, .i32⟩
  | .hbm, ⟨63, _⟩ => ⟨S200000x128, .f32⟩
  | .hbm, ⟨64, _⟩ => ⟨S1x128, .f32⟩
  | .hbm, ⟨65, _⟩ => ⟨S200000x128, .f32⟩
  | .hbm, ⟨66, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S200000_S800000_d0 : Shape.Concatenates [S600000, S200000] S800000 0
  slices_S2x600000_S1x600000_1_0 : S2x600000.Slices ![1, 0] S1x600000
  bcast_S_S800000 : S_.BroadcastsInDim S800000 (![] : Fin 0 → Fin S800000.rank)
  bcast_S_S200000 : S_.BroadcastsInDim S200000 (![] : Fin 0 → Fin S200000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S200000x128 : S_.BroadcastsInDim S200000x128 (![] : Fin 0 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  scatter_S200000_S800000x1_S800000_n_0_0_1_wf : ScatterDims.WF S200000 S800000x1 S800000 [] [0] [0] 1
  gather_S200000_S800000x1_S800000_n_0_n_n_0_1_1_wf : GatherDims.WF S200000 S800000x1 S800000 [] [0] [] [0] [] 1 ![1]
  dot_S200000x128_S128x128_S200000x128_1_0_0_1_n_n_wf : DotDims.WF S200000x128 S128x128 S200000x128 [1] [0] [0] [1] [] []
  gather_S200000x128_S800000x1_S800000x128_1_0_n_n_0_1_1128_wf : GatherDims.WF S200000x128 S800000x1 S800000x128 [1] [0] [] [0] [] 1 ![1, 128]
  scatter_S200000x128_S800000x1_S800000x128_1_0_0_1_wf : ScatterDims.WF S200000x128 S800000x1 S800000x128 [1] [0] [0] 1

variable [Facts₀]

def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def gather_S200000_S800000x1_S800000_n_0_n_n_0_1_1 : GatherDims S200000 S800000x1 S800000 where
  offsetDims := []
  collapsedSliceDims := [0]
  operandBatchingDims := []
  startIndicesBatchingDims := []
  startIndexMap := [0]
  indexVectorDim := 1
  sliceSizes := ![1]
  wf := gather_S200000_S800000x1_S800000_n_0_n_n_0_1_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf

class Facts : Prop extends Facts₀ where

variable [Facts]
-- ==== Proof.Aggregate.lean ====
import proofs.«141066_j82669530513964_1_alg».proof.Proof.Gen.KernelIdeal.Launch
import Idealize.ShloMosaic.Lib.StableHlo.Run

set_option maxRecDepth 16384

/-!
  The graph aggregation between the two kernel regions, as ONE function of the projected features and the edge list.

  A message is an edge `(s, d)` of the 600000 listed ones or a self-loop `(n, n)` of the 200000 nodes; `src` and `dst` are
  the 800000 messages' endpoints. A node's degree is the number of messages that end in it; a message's weight is
  `deg(s)^(-1/2) · deg(d)^(-1/2)` (zero where a degree is not positive); the aggregated row of node `n` is the sum, over the
  messages that end in `n`, of the source's projected row times the message's weight. Indices are wrapped as jnp wraps a
  negative index, and a gather or scatter-add out of range follows the host operations' own conventions: nothing here
  opens them. The host operations @main runs between region 0's exit and region 1's entry compute exactly this function
  of region 0's output array and the edge list (`between`), and the bias row is the bias vector reshaped (`bias_row`).
-/

noncomputable section

namespace Cert.KernelIdeal.Aggregate

open Idealize.ShloMosaic Idealize.ShloMosaic.TcCoe Idealize.SL.Sem Idealize.ShloMosaic.StableHlo
open Cert.KernelIdeal Cert.KernelIdeal.Gen

variable {F : FTy → Type} [FloatOps F]

/-- One endpoint of every message: row `off 0` of the edge list, then one self-loop per node (`0 … 199999`). -/
def endpoint (off : Fin 2 → Nat) (h : S2x600000.Slices off S1x600000) (ei : (⟨S2x600000, .i32⟩ : BufTy).Contents (Elt F)) :
    (⟨S800000, .i32⟩ : BufTy).Contents (Elt F) :=
  concatenate S800000 0 [⟨S600000, shapeCast _ (extractStridedSlice S1x600000 off ei h) shapeCasts_S1x600000_S600000⟩, ⟨S200000, iotaInDim S200000 32 0⟩] concatenates_S600000_S200000_S800000_d0

/-- The messages' sources. -/
def src (ei : (⟨S2x600000, .i32⟩ : BufTy).Contents (Elt F)) : (⟨S800000, .i32⟩ : BufTy).Contents (Elt F) :=
  endpoint (F := F) ![0, 0] slices_S2x600000_S1x600000_0_0 ei

/-- The messages' targets. -/
def dst (ei : (⟨S2x600000, .i32⟩ : BufTy).Contents (Elt F)) : (⟨S800000, .i32⟩ : BufTy).Contents (Elt F) :=
  endpoint (F := F) ![1, 0] slices_S2x600000_S1x600000_1_0 ei

/-- jnp's reading of a negative index: below zero it counts from the end (`+ 200000`). -/
def wrap (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 200000#32))) v

/-- A vector of messages as a column of one-element index vectors. -/
def col {α : Type} (v : S800000.Idx → α) : S800000x1.Idx → α :=
  broadcastInDim S800000x1 ![0] bcast_S800000_S800000x1_0 v

/-- Every node's degree: a one per message, summed at the message's target. -/
def deg (ei : (⟨S2x600000, .i32⟩ : BufTy).Contents (Elt F)) : (⟨S200000, .f32⟩ : BufTy).Contents (Elt F) :=
  Host.scatterAdd scatter_S200000_S800000x1_S800000_n_0_0_1
    (broadcastInDim S200000 ![] bcast_S_S200000 (constant S_ .f32 0x00000000#32))
    (col (dst (F := F) ei))
    (broadcastInDim S800000 ![] bcast_S_S800000 (constant S_ .f32 0x3F800000#32))

/-- `deg^(-1/2)` where the degree is positive (the root taken of `max deg 1`), zero elsewhere. -/
def invSqrtDeg (ei : (⟨S2x600000, .i32⟩ : BufTy).Contents (Elt F)) : (⟨S200000, .f32⟩ : BufTy).Contents (Elt F) :=
  select (cmpf (F := F) .ogt (deg ei) (broadcastInDim S200000 ![] bcast_S_S200000 (constant S_ .f32 0x00000000#32)))
    (Host.rsqrt (maximumf (deg ei) (broadcastInDim S200000 ![] bcast_S_S200000 (constant S_ .f32 0x3F800000#32))))
    (broadcastInDim S200000 ![] bcast_S_S200000 (id (constant S_ .f32 0x00000000#32)))

/-- A message's weight: the product of its two endpoints' `deg^(-1/2)`. -/
def weight (ei : (⟨S2x600000, .i32⟩ : BufTy).Contents (Elt F)) : (⟨S800000, .f32⟩ : BufTy).Contents (Elt F) :=
  mulf (Host.gather gather_S200000_S800000x1_S800000_n_0_n_n_0_1_1 (invSqrtDeg ei) (col (wrap (F := F) (src (F := F) ei))))
    (Host.gather gather_S200000_S800000x1_S800000_n_0_n_n_0_1_1 (invSqrtDeg ei) (col (wrap (F := F) (dst (F := F) ei))))

/-- The aggregation: each message carries its source's row of `h` times its weight, and a node sums the messages
    that end in it. -/
def aggregate (h : (⟨S200000x128, .f32⟩ : BufTy).Contents (Elt F)) (ei : (⟨S2x600000, .i32⟩ : BufTy).Contents (Elt F)) :
    (⟨S200000x128, .f32⟩ : BufTy).Contents (Elt F) :=
  Host.scatterAdd scatter_S200000x128_S800000x1_S800000x128_1_0_0_1
    (broadcastInDim S200000x128 ![] bcast_S_S200000x128 (constant S_ .f32 0x00000000#32))
    (col (dst (F := F) ei))
    (mulf (Host.gather gather_S200000x128_S800000x1_S800000x128_1_0_n_n_0_1_1128 h (col (wrap (F := F) (src (F := F) ei))))
      (broadcastInDim S800000x128 ![0, 1] bcast_S800000x1_S800000x128_0_1 (col (weight ei))))

set_option maxHeartbeats 8000000 in
/-- From any contents `X` of the buffers at region 0's exit, the host operations up to region 1's entry leave in
    `main_v45` the aggregation of `X`'s `main_v0` (region 0's output) along `X`'s edge list. -/
theorem between (X : Valuation τ sig (Elt F)) :
    after (hostOps1_2 (F := F)) (after (hostOps1_1 (F := F)) (after (hostOps1 (F := F)) X)) (Proc.devRef .tc main_v45)
      = aggregate (X (Proc.devRef .tc main_v0)) (X (Proc.devRef .tc main_arg1)) := by
  after_results_simp <;> rfl

set_option maxHeartbeats 8000000 in
/-- … and in `main_v46` the bias vector as one row. -/
theorem bias_row (X : Valuation τ sig (Elt F)) :
    after (hostOps1_2 (F := F)) (after (hostOps1_1 (F := F)) (after (hostOps1 (F := F)) X)) (Proc.devRef .tc main_v46)
      = shapeCast S1x128 (X (Proc.devRef .tc main_arg3)) shapeCasts_S128_S1x128 := by
  after_results_simp <;> rfl

end Cert.KernelIdeal.Aggregate

end
-- ==== Proof.RefValue.lean ====
import proofs.«141066_j82669530513964_1_alg».proof.Proof.RefRead
import proofs.«141066_j82669530513964_1_alg».proof.Proof.Aggregate
import Idealize.ShloMosaic.Lib.ValueIdx

set_option maxRecDepth 16384

/-!
  The reference's stages, read as the kernel program's own functions: its aggregation is the kernel program's
  `Aggregate.aggregate` of ITS projection (the same host operations in the same order, the dense product computed
  before them instead of after the degree computation), its dense product at an entry is the sum over the 128
  contracted coordinates, and its broadcast bias at an entry is the bias vector at the entry's column.
-/

noncomputable section

namespace Cert.ReferenceIdeal.RefValue

open Idealize.ShloMosaic Idealize.ShloMosaic.TcCoe Idealize.SL.Sem
open Idealize.ShloMosaic.ValueIdx
open Cert.ReferenceIdeal Cert.ReferenceIdeal.Gen Cert.ReferenceIdeal.ReadP

section AnyValues
variable {F : FTy → Type} [FloatOps F]

/-- The reference's scatter-add of the weighted, gathered rows is the aggregation of its dense product along the
    edge list: operation by operation the same term. -/
theorem aggregation_eq (x0 : (⟨S200000x128, .f32⟩ : BufTy).Contents (Elt F)) (x1 : (⟨S2x600000, .i32⟩ : BufTy).Contents (Elt F))
    (x2 : (⟨S128x128, .f32⟩ : BufTy).Contents (Elt F)) :
    val_main_v45 (F := F) x0 x1 x2 = Cert.KernelIdeal.Aggregate.aggregate (F := F) (val_main_v32 (F := F) x0 x2) x1 := rfl

end AnyValues

/-- The reference's dense product at entry `(r, s)`: the sum over `k` of `x0[r, k] · x2[k, s]`. -/
theorem product_eq (x0 : (⟨S200000x128, .f32⟩ : BufTy).Contents (Elt Ideal)) (x2 : (⟨S128x128, .f32⟩ : BufTy).Contents (Elt Ideal)) :
    val_main_v32 (F := Ideal) x0 x2 = fun j => ∑ k : Fin 128, x0 (ix2 (j 0) k) * x2 (ix2 k (j 1)) := by
  funext j
  rw [val_main_v32_apply]
  refine Finset.sum_congr rfl fun k _ => ?_
  have el : lidx_main_v32 j k = ix2 (j 0) k := funext fun a => Fin.ext (by match a with | ⟨0, _⟩ => rfl | ⟨1, _⟩ => rfl)
  have er : ridx_main_v32 j k = ix2 k (j 1) := funext fun a => Fin.ext (by match a with | ⟨0, _⟩ => rfl | ⟨1, _⟩ => rfl)
  exact congrArg₂ (· * ·) (congrArg x0 el) (congrArg x2 er)

/-- The reference's bias, broadcast to a row and then to every row, at entry `(r, s)` is `x3[s]`. -/
theorem bias_eq (x3 : (⟨S128, .f32⟩ : BufTy).Contents (Elt Ideal)) :
    val_main_v47 (F := Ideal) x3 = fun j => x3 (ix1 (j 1)) := by
  funext j
  rw [val_main_v47_apply, val_main_v46_apply]
  exact congrArg x3 (funext fun a => Fin.ext (by match a with | ⟨0, _⟩ => rfl))

end Cert.ReferenceIdeal.RefValue

end
-- ==== Proof.Projection.lean ====
import proofs.«141066_j82669530513964_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

/-!
  Region 0, read as a value. The grid's twenty points each take a block of 10000 rows of the node features and the
  whole 128 × 128 weight array, and store the block's rows times the weights. At the ideal values the narrowing of
  the operands is the identity and the product into a zero accumulator is the plain sum over the contracted
  coordinate, so block `t` of the output is block `t` of ONE whole-array function, `proj x w`; the twenty blocks
  tile the 200000 rows, so the output array ends holding `proj` of what the region found.
-/

noncomputable section

namespace Cert.KernelIdeal.Projection

open Idealize.ShloMosaic Idealize.ShloMosaic.TcCoe Idealize.SL.Sem
open Idealize.ShloMosaic.Pipeline (Dat Cfg Window)
open Idealize.ShloMosaic.ValueIdx
open Cert.KernelIdeal Cert.KernelIdeal.Gen

-- the region-entry contents: any assignment of contents to the TensorCore's buffers, at the ideal values
variable (V : (c : Dev nD) → (b : Ref sig .tc) → Buf (Elt Ideal) ((c : Thread nD τ).loc b))

/-- The dense projection: row `j 0` of the node features times column `j 1` of the weights. -/
def proj (x : S200000x128.Idx → EReal) (w : S128x128.Idx → EReal) : S200000x128.Idx → EReal :=
  fun j => ∑ k : Fin 128, x (ix2 (j 0) k) * w (ix2 k (j 1))

/-! ## The product of a block of rows with the weights, entry by entry -/

/-- The zero offsets of a whole-buffer access, as a constant function. -/
theorem zero_offsets : (![0, 0] : Fin 2 → Nat) = fun _ => 0 := funext fun a => by fin_cases a <;> rfl

/-- The left operand's row is the output's row: axis 0 of the left operand is not contracted. -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column is the summation index: axis 1 of the left operand is the contracted one. -/
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the summation index: axis 0 of the right operand is the contracted one. -/
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column is the output's column: axis 1 of the right operand is not contracted. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body stores, at row `p` and column `q` of the block: at the ideal values the narrowing of the operands
    changes nothing and the product into the zero accumulator is the plain sum over the contracted axis of the
    products of row `p` of the block's features with column `q` of the weights. -/
theorem product_at (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-- The same at a block index given whole: its row and column are its two coordinates. -/
theorem product_apply (x0 : Vec Ideal S10000x128 .f32) (x1 : Vec Ideal S128x128 .f32) (j : S10000x128.Idx) :
    k0_pay1 x0 x1 j = ∑ k : Fin 128, x0 (ix2 (j 0) k) * x1 (ix2 k (j 1)) := by
  obtain ⟨p, q, rfl⟩ : ∃ (p : Fin 10000) (q : Fin 128), j = ix2 p q := ⟨j 0, j 1, eq_ix2 j⟩
  exact product_at x0 x1 p q

/-! ## From the blocks of rows to the whole array -/

/-- The printed index maps, decided over the twenty grid points: the features' block of rows is the output's, along
    the columns every window has one block, the weights' window is the whole array, and the output's blocks of rows
    are numbered below twenty. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the twenty blocks of rows is some grid point's. -/
theorem block_onto : ∀ q : Fin 20, ∃ t : Fin cfg0.N, win0_2.index t = ![q.val, 0] :=
  (by decide +kernel : ∀ q : Fin 20, ∃ t : Fin grid0.N, win0_2.index t = ![q.val, 0])

/-- What grid point `t` writes back is block `t` of the projection of the two arrays as the region found them: the
    features' block holds the same rows as the output's block, and the weights' block is the whole weight array. -/
theorem written_block (c : Dev nD) (t : Fin cfg0.N) :
    (dat0 V c).flushed 2 t = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨e0, e1, e2, e3, e4, e5⟩ := block_indices t
  funext j
  show k0_pay1 (iblk0 V c 0 t) (iblk0 V c 1 t) j = proj (V c main_arg0) (V c main_arg2) (((cfg0.win 2).blk t).view.emb j)
  refine (product_apply (iblk0 V c 0 t) (iblk0 V c 1 t) j).trans ?_
  unfold proj
  refine Finset.sum_congr rfl fun k _ => ?_
  have h0 : (iblk0 V c 0 t : Vec Ideal S10000x128 .f32) (ix2 (j 0) k)
      = V c main_arg0 (ix2 ((((cfg0.win 2).blk t).view.emb j) 0) k) := by
    show V c main_arg0 (((cfg0.win 0).blk t).view.emb (ix2 (j 0) k)) = V c main_arg0 _
    refine congrArg _ ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : (iblk0 V c 1 t : Vec Ideal S128x128 .f32) (ix2 k (j 1))
      = V c main_arg2 (ix2 k ((((cfg0.win 2).blk t).view.emb j) 1)) := by
    show V c main_arg2 (((cfg0.win 1).blk t).view.emb (ix2 k (j 1))) = V c main_arg2 _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (· * ·) h0 h1

/-- An index of the array is in grid point `t`'s block iff each coordinate is in the block's range on its axis. -/
theorem mem_block (t : Fin cfg0.N) (i : S200000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- The twenty blocks of ten thousand rows cover the array: row `r` is in block `r / 10000`, and that block is
    written back. -/
theorem covered (i : S200000x128.Idx) :
    ∃ t : Fin cfg0.N, (cfg0.win 2).flush t = true ∧ i ∈ ((cfg0.win 2).blk t).view.set := by
  have hi0 : (i 0).val < 200000 := (i 0).isLt
  have hi1 : (i 1).val < 128 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After region 0 its output array holds the projection of the two input arrays as the region found them. -/
theorem final (c : Dev nD) :
    (dat0 V c).arrAt 2 cfg0.N = proj (V c main_arg0) (V c main_arg2) := by
  exact (dat0 V c).arrAt_eq_of_cover 2 (proj (V c main_arg0) (V c main_arg2)) (fun t _ => written_block V c t) covered

end Cert.KernelIdeal.Projection

end
-- ==== Proof.BiasAdd.lean ====
import proofs.«141066_j82669530513964_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

/-!
  Region 1, read as a value. The grid's twenty points each take a block of 10000 rows of the aggregated features and
  the one-row bias, and store the block plus the row repeated over its rows. Block `t` of the output is block `t`
  of ONE whole-array function, `addRow a b` (entry `(r, s)` is `a[r, s] + b[0, s]`); the twenty blocks tile the
  200000 rows, so the output array ends holding `addRow` of what the region found.
-/

noncomputable section

namespace Cert.KernelIdeal.BiasAdd

open Idealize.ShloMosaic Idealize.ShloMosaic.TcCoe Idealize.SL.Sem
open Idealize.ShloMosaic.Pipeline (Dat Cfg Window)
open Idealize.ShloMosaic.ValueIdx
open Cert.KernelIdeal Cert.KernelIdeal.Gen

-- the region-entry contents: any assignment of contents to the TensorCore's buffers, at the ideal values
variable (V : (c : Dev nD) → (b : Ref sig .tc) → Buf (Elt Ideal) ((c : Thread nD τ).loc b))

/-- Every row of the aggregated features plus the one-row bias. -/
def addRow (a : S200000x128.Idx → EReal) (b : S1x128.Idx → EReal) : S200000x128.Idx → EReal :=
  fun j => a j + b (ix2 0 (j 1))

/-- The zero offsets of a whole-buffer access, as a constant function. -/
theorem zeroOffsets : (![0, 0] : Fin 2 → Nat) = fun _ => 0 := funext fun a => by fin_cases a <;> rfl

/-- The body's value at row `p`, column `q` of a block: the block's entry there plus the bias row's entry at
    column `q` (the two shape casts keep their shapes, the broadcast repeats the one row over the 10000 rows). -/
theorem payload_apply (x0 : Vec Ideal S10000x128 .f32) (x1 : Vec Ideal S1x128 .f32) (p : Fin 10000) (q : Fin 128) :
    k1_pay1 x0 x1 (ix2 p q) = x0 (ix2 p q) + x1 (ix2 0 q) := by
  unfold k1_pay1
  show shapeCast S10000x128 x0 shapeCasts_S10000x128_S10000x128 (ix2 p q)
      + broadcastTo S10000x128 (shapeCast S1x128 x1 shapeCasts_S1x128_S1x128) broadcasts_S1x128_S10000x128 (ix2 p q) = _
  rw [shapeCast_self, shapeCast_self, broadcastTo_1b_ab_apply]

/-- The printed block-index maps over the twenty grid points: the first input's row block moves with the output's,
    every column block index is `0`, the bias row's one block stays at `(0, 0)`, and the output's row block index is
    at most `19`. -/
theorem index_facts : ∀ t : Fin cfg1.N,
    win1_0.index t (0 : Fin 2) = win1_2.index t (0 : Fin 2)
  ∧ win1_0.index t (1 : Fin 2) = 0
  ∧ win1_2.index t (1 : Fin 2) = 0
  ∧ win1_1.index t (0 : Fin 2) = 0
  ∧ win1_1.index t (1 : Fin 2) = 0
  ∧ win1_2.index t (0 : Fin 2) ≤ 19 :=
  (by decide +kernel : ∀ t : Fin grid1.N, _)

/-- Every one of the twenty row blocks is some grid point's. -/
theorem index_onto : ∀ q : Fin 20, ∃ t : Fin cfg1.N, win1_2.index t = ![q.val, 0] :=
  (by decide +kernel : ∀ q : Fin 20, ∃ t : Fin grid1.N, win1_2.index t = ![q.val, 0])

/-- Reading block `t` of the two inputs where the output's block `t` lies: the row block of the first input sits
    exactly over the output's, and the bias row's one block is the whole row, read at the output's column. -/
theorem block_reads (A : S200000x128.Idx → EReal) (B : S1x128.Idx → EReal) (t : Fin cfg1.N)
    (p : Fin 10000) (q : Fin 128) :
    A (((cfg1.win 0).blk t).view.emb (ix2 p q)) + B (((cfg1.win 1).blk t).view.emb (ix2 0 q))
      = addRow A B (((cfg1.win 2).blk t).view.emb (ix2 p q)) := by
  obtain ⟨e0, e1, e2, e3, e4, e5⟩ := index_facts t
  show A (((cfg1.win 0).blk t).view.emb (ix2 p q)) + B (((cfg1.win 1).blk t).view.emb (ix2 0 q))
      = A (((cfg1.win 2).blk t).view.emb (ix2 p q)) + B (ix2 0 ((((cfg1.win 2).blk t).view.emb (ix2 p q)) 1))
  have h0 : ((cfg1.win 0).blk t).view.emb (ix2 p q) = ((cfg1.win 2).blk t).view.emb (ix2 p q) := by
    funext a; apply Fin.ext
    match a with
    | ⟨0, _⟩ =>
      show win1_0.index t (0 : Fin 2) * 10000 + 1 * p.val = win1_2.index t (0 : Fin 2) * 10000 + 1 * p.val
      omega
    | ⟨1, _⟩ =>
      show win1_0.index t (1 : Fin 2) * 128 + 1 * q.val = win1_2.index t (1 : Fin 2) * 128 + 1 * q.val
      omega
  have h1 : ((cfg1.win 1).blk t).view.emb (ix2 0 q)
      = ix2 0 ((((cfg1.win 2).blk t).view.emb (ix2 p q)) 1) := by
    funext a; apply Fin.ext
    match a with
    | ⟨0, _⟩ =>
      show win1_1.index t (0 : Fin 2) * 1 + 1 * 0 = 0
      omega
    | ⟨1, _⟩ =>
      show win1_1.index t (1 : Fin 2) * 128 + 1 * q.val = win1_2.index t (1 : Fin 2) * 128 + 1 * q.val
      omega
  exact congrArg₂ (fun x y : EReal => x + y) (congrArg A h0) (congrArg B h1)

/-- What point `t` writes back is block `t` of the whole-array sum. -/
theorem flushed_eq (c : Dev nD) (t : Fin cfg1.N) :
    (dat1 V c).flushed 2 t
      = ((cfg1.win 2).blk t).view.read (Elt Ideal) (addRow (V c main_v45) (V c main_v46)) := by
  show (cfg1.win 2).cut (grid1.coords t) ((dat1 V c).after 2 t) = _
  rw [after1_2]
  unfold out1_2
  rw [View.canon_unit_zero zeroOffsets]
  simp only [View.ld_unit_zero (S := S10000x128) zeroOffsets, View.ld_unit_zero (S := S1x128) zeroOffsets]
  funext j
  obtain ⟨p, q, rfl⟩ : ∃ (p : Fin 10000) (q : Fin 128), j = ix2 p q := ⟨j 0, j 1, eq_ix2 j⟩
  show k1_pay1 (iblk1 V c 0 t) (iblk1 V c 1 t) (ix2 p q)
      = addRow (V c main_v45) (V c main_v46) (((cfg1.win 2).blk t).view.emb (ix2 p q))
  refine (payload_apply (iblk1 V c 0 t) (iblk1 V c 1 t) p q).trans ?_
  exact block_reads (V c main_v45) (V c main_v46) t p q

/-- An index of the array lies in point `t`'s block iff each coordinate lies in the block's range on its axis. -/
theorem mem_block (t : Fin cfg1.N) (i : S200000x128.Idx) :
    i ∈ ((cfg1.win 2).blk t).view.set
      ↔ ∀ a : Fin 2, win1_2.index t a * S10000x128.size a ≤ (i a).val
          ∧ (i a).val < win1_2.index t a * S10000x128.size a + S10000x128.size a := by
  show i ∈ ((View.whole main_v47).slice (win1_2.rect t)).set ↔ _
  rw [View.set_slice_whole, Rect.mem_set_unit]
  exact Iff.rfl

/-- Row `r` lies in block `r / 10000`: the twenty blocks of 10000 rows tile the 200000 rows. -/
theorem covered (i : S200000x128.Idx) :
    ∃ t : Fin cfg1.N, (cfg1.win 2).flush t = true ∧ i ∈ ((cfg1.win 2).blk t).view.set := by
  have hi0 : (i 0).val < 200000 := (i 0).isLt
  have hi1 : (i 1).val < 128 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- After region 1 its output array holds the aggregated array plus the bias row, both as the region found them. -/
theorem final (c : Dev nD) :
    (dat1 V c).arrAt 2 cfg1.N = addRow (V c main_v45) (V c main_v46) := by
  exact (dat1 V c).arrAt_eq_of_cover 2 (addRow (V c main_v45) (V c main_v46)) (fun t _ => flushed_eq V c t) covered

end Cert.KernelIdeal.BiasAdd

end
-- ==== Proof.Result.lean ====
import proofs.«141066_j82669530513964_1_alg».proof.Proof.KernelRun
import proofs.«141066_j82669530513964_1_alg».proof.Proof.Projection
import proofs.«141066_j82669530513964_1_alg».proof.Proof.BiasAdd
import proofs.«141066_j82669530513964_1_alg».proof.Proof.Aggregate

set_option maxRecDepth 16384

/-!
  The kernel program's result, at the ideal values, as ONE function of its four argument arrays:
  `result x e w b = addRow (aggregate (proj x w) e) (b as a row)` — the dense projection `x · w` (region 0), the graph
  aggregation along the edge list `e` (the host operations between the regions), and the bias added to every row
  (region 1). Each region's output array is the whole-array function of what the region found; the boundary contents
  are chained from the launch memory: region 0 reads the arguments as launched, the host operations read region 0's
  output and the untouched edge list and bias, region 1 reads what they left.
-/

noncomputable section

namespace Cert.KernelIdeal.Result

open Idealize.ShloMosaic Idealize.ShloMosaic.TcCoe Idealize.SL.Sem
open Idealize.ShloMosaic.ValueIdx
open Cert.KernelIdeal Cert.KernelIdeal.Gen

/-- The program's result as a function of the node features `x`, the edge list `e`, the weights `w` and the bias `b`. -/
def result (x : (⟨S200000x128, .f32⟩ : BufTy).Contents (Elt Ideal)) (e : (⟨S2x600000, .i32⟩ : BufTy).Contents (Elt Ideal))
    (w : (⟨S128x128, .f32⟩ : BufTy).Contents (Elt Ideal)) (b : (⟨S128, .f32⟩ : BufTy).Contents (Elt Ideal)) : S200000x128.Idx → EReal :=
  BiasAdd.addRow (Aggregate.aggregate (F := Ideal) (Projection.proj x w) e) (shapeCast S1x128 b shapeCasts_S128_S1x128)

variable (m : (ℓ : Loc nD τ sig) → Buf (Elt Ideal) ℓ) (ρ : Dev nD → PrngReg)

/-- Region 0's output array at its exit: the projection of the launch memory's features and weights. -/
theorem projected (c : Dev nD) :
    W1 m ρ c (Proc.devRef .tc main_v0) = Projection.proj (m ((c : Thread nD τ).loc main_arg0)) (m ((c : Thread nD τ).loc main_arg2)) :=
  (W1_arr m ρ c 2).trans (Projection.final (V0 m ρ) c)

/-- The edge list and the bias are no array of region 0: at its exit they are as launched. -/
theorem edges_kept (c : Dev nD) : W1 m ρ c (Proc.devRef .tc main_arg1) = m ((c : Thread nD τ).loc main_arg1) :=
  W1_of_ne m ρ c main_arg1 (by decide)
theorem bias_kept (c : Dev nD) : W1 m ρ c (Proc.devRef .tc main_arg3) = m ((c : Thread nD τ).loc main_arg3) :=
  W1_of_ne m ρ c main_arg3 (by decide)

/-- The result buffer at the last boundary is `result` of the launch memory's arguments. -/
theorem last_contents (c : Dev nD) :
    W5 m ρ c (Proc.devRef .tc main_v47)
      = result (m ((c : Thread nD τ).loc main_arg0)) (m ((c : Thread nD τ).loc main_arg1)) (m ((c : Thread nD τ).loc main_arg2)) (m ((c : Thread nD τ).loc main_arg3)) := by
  have hagg : V4 m ρ c main_v45 = Aggregate.aggregate (F := Ideal) (W1 m ρ c (Proc.devRef .tc main_v0)) (W1 m ρ c (Proc.devRef .tc main_arg1)) :=
    Aggregate.between (W1 m ρ c)
  have hrow : V4 m ρ c main_v46 = shapeCast S1x128 (W1 m ρ c (Proc.devRef .tc main_arg3)) shapeCasts_S128_S1x128 :=
    Aggregate.bias_row (W1 m ρ c)
  refine (W5_arr m ρ c 2).trans ((BiasAdd.final (V4 m ρ) c).trans ?_)
  rw [hagg, hrow, projected m ρ c, edges_kept m ρ c, bias_kept m ρ c]
  rfl

/-- Every weakly fair execution of @main from `m` terminates with the result buffer at `result` of the arguments, the
    arguments unchanged. -/
theorem run : θ_run defs (onTc (τ := τ) (main (F := Ideal))) ⟨m, fun _ => 0, ρ⟩ (fun r => ∀ c : Dev nD,
      r.2.mem ((c.tc : Thread nD τ).loc main_v47)
        = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (last_contents m ρ c), (h c).2⟩) (run_result m ρ)

end Cert.KernelIdeal.Result

end
-- ==== Proof.Bridge.lean ====
import proofs.«141066_j82669530513964_1_alg».proof.Proof.RefValue
import proofs.«141066_j82669530513964_1_alg».proof.Proof.Result
import Idealize.ShloMosaic.Lib.Pipeline.Value

set_option maxRecDepth 16384

/-!
  The two programs compute one function. The reference adds the broadcast bias to the aggregation of its dense
  product; the kernel program adds the bias row to the aggregation of its projection. The dense product and the
  projection are the same sum over the contracted coordinate, the aggregation is the same host operations, and
  the bias broadcast to every row, read at entry `(r, s)`, is the bias reshaped to one row read at `(0, s)`:
  both are `b[s]`. No law of the extended reals is needed beyond reading both sides at an entry.
-/

noncomputable section

namespace Cert.Proof.Bridge

open Idealize.ShloMosaic Idealize.ShloMosaic.TcCoe Idealize.SL.Sem
open Idealize.ShloMosaic.ValueIdx
open Cert.ReferenceIdeal Cert.ReferenceIdeal.ReadP Cert.ReferenceIdeal.RefValue

/-- The bias vector reshaped to one row, read at `(0, s)`, is the bias at `s`. -/
theorem bias_row_apply (b : (⟨Cert.KernelIdeal.S128, .f32⟩ : BufTy).Contents (Elt Ideal)) (s : Fin 128) :
    shapeCast Cert.KernelIdeal.S1x128 b Cert.KernelIdeal.Gen.shapeCasts_S128_S1x128 (ix2 (0 : Fin 1) s) = b (ix1 s) :=
  shapeCast_apply b Cert.KernelIdeal.Gen.shapeCasts_S128_S1x128 (ix2 (0 : Fin 1) s) (ix1 s)
    (by rewrite [Shape.rowMajor_val_one, Shape.rowMajor_val_two]; show s.val = 0 * 128 + s.val; omega)

/-- The reference's last stage is the kernel program's `result` of the same four arrays. -/
theorem reference_is_result (x0 : (⟨S200000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal)) :
    val_main_v48 (F := Ideal) x0 x1 x2 x3 = Cert.KernelIdeal.Result.result x0 x1 x2 x3 := by
  have hproj : val_main_v32 (F := Ideal) x0 x2 = Cert.KernelIdeal.Projection.proj x0 x2 := product_eq x0 x2
  have hrow : ∀ s : Fin 128,
      shapeCast Cert.KernelIdeal.S1x128 x3 Cert.KernelIdeal.Gen.shapeCasts_S128_S1x128 (ix2 (0 : Fin 1) s) = x3 (ix1 s) :=
    bias_row_apply x3
  unfold val_main_v48
  rw [aggregation_eq, hproj, bias_eq]
  unfold Cert.KernelIdeal.Result.result
  -- the aggregation is the same term on both sides, and the bias row is known by its entries: from here on both are
  -- unopened arrays
  generalize Cert.KernelIdeal.Aggregate.aggregate (F := Ideal) (Cert.KernelIdeal.Projection.proj x0 x2) x1 = agg
  generalize shapeCast Cert.KernelIdeal.S1x128 x3 Cert.KernelIdeal.Gen.shapeCasts_S128_S1x128 = row at hrow ⊢
  funext j
  rw [addf_apply]
  unfold Cert.KernelIdeal.BiasAdd.addRow
  exact congrArg (fun b : EReal => agg j + b) (hrow (j 1)).symm

end Cert.Proof.Bridge

end
-- ==== Proof.lean ====
/-
  A graph-convolution layer (PyG's GCNConv): `out = Â · (X W) + b`, with `Â` the adjacency of the listed edges and
  one self-loop per node, normalised symmetrically by the degrees. The kernel program computes `X W` in a
  pallas_call (20 blocks of 10000 rows; bf16 operands into an f32 accumulator, which at the ideal values is the
  exact product), runs the gather / scale / scatter-add aggregation as host operations, and adds the bias in a
  second pallas_call; the reference runs the same host operations around `jnp`'s dense product and a broadcast add.

  At the ideal values both results are `Result.result x e w b` — entry `(r, s)` is the aggregation of the projection
  `(r', s) ↦ ∑ k, x[r', k] · w[k, s]` along the edge list `e`, plus `b[s]` —: the kernel program's by its two regions'
  whole-array values chained through the boundaries of @main (`Result.run`), the reference's by reading its stages
  (`Bridge.reference_is_result`). The aggregation is never opened: both programs apply it, as the same operations,
  to projections that are equal entry by entry. The frames are the programs' runs with the results dropped; nothing
  here needs the inputs to be finite.
-/
import proofs.«141066_j82669530513964_1_alg».proof.Defs
import proofs.«141066_j82669530513964_1_alg».proof.Proof.Gen.Kernel
import proofs.«141066_j82669530513964_1_alg».proof.Proof.Gen.Kernel.Skeleton
import proofs.«141066_j82669530513964_1_alg».proof.Proof.Gen.Kernel.Launch
import proofs.«141066_j82669530513964_1_alg».proof.Proof.Gen.Kernel.Points
import proofs.«141066_j82669530513964_1_alg».proof.Proof.Gen.Kernel.Frame
import proofs.«141066_j82669530513964_1_alg».proof.Proof.Gen.KernelIdeal
import proofs.«141066_j82669530513964_1_alg».proof.Proof.Gen.KernelIdeal.Skeleton
import proofs.«141066_j82669530513964_1_alg».proof.Proof.Gen.KernelIdeal.Launch
import proofs.«141066_j82669530513964_1_alg».proof.Proof.Gen.KernelIdeal.Points
import proofs.«141066_j82669530513964_1_alg».proof.Proof.Gen.KernelIdeal.Frame
import proofs.«141066_j82669530513964_1_alg».proof.Proof.Gen.ReferenceIdeal
import proofs.«141066_j82669530513964_1_alg».proof.Proof.Gen.Pre_finite_inputs
import proofs.«141066_j82669530513964_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The reference runs and keeps its arguments: its run, the result dropped. -/
theorem frame_reference_ideal : Cert.frame_ReferenceIdeal := fun m ρ _ =>
  (θ_run Cert.ReferenceIdeal.defs _ _).mono (fun _ h c => (h c).2) (Cert.ReferenceIdeal.RunP.run (F := Ideal) m ρ)

/-- From memories that agree on the four arguments both programs end with `Result.result` of them in their result
    buffers. -/
theorem algebraic : Cert.algebraic_KernelIdeal_ReferenceIdeal := by
  intro m ρ m' ρ' _ hagree
  refine ⟨fun c => Cert.KernelIdeal.Result.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v48_eq, Cert.Proof.Bridge.reference_is_result,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
